-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x128x128x16 : Shape := ⟨5, ![4, 16, 128, 128, 16]⟩
abbrev S_ : Shape := ⟨0, ![]⟩

class Facts : Prop where
  bcast_S_S4x16x128x128x16 : S_.BroadcastsInDim S4x16x128x128x16 (![] : Fin 0 → Fin S4x16x128x128x16.rank)
  reducesTo_S4x16x128x128x16_S_d0_1_2_3_4 : S4x16x128x128x16.ReducesTo [0, 1, 2, 3, 4] S_
  h_S_ : 0 < S_.numel

variable [Facts]

def fn {F : FTy → Type} [FloatOps F] (main_arg0 : FVec F S4x16x128x128x16 .f32) : IVec S_ 1 :=
  let main_v0 : FVec F S4x16x128x128x16 .f32 := Host.absf main_arg0
  let main_cst : FVec F S_ .f32 := constant S_ .f32 0x7F800000#32
  let main_v1 : FVec F S4x16x128x128x16 .f32 := broadcastInDim S4x16x128x128x16 ![] bcast_S_S4x16x128x128x16 main_cst
  let main_v2 : IVec S4x16x128x128x16 1 := cmpf .olt main_v0 main_v1
  let main_c : IVec S_ 1 := constantI S_ 1 1#1
  let main_v3 : IVec S_ 1 := (fun x v => Host.reduce IntOp.andi x v reducesTo_S4x16x128x128x16_S_d0_1_2_3_4 h_S_) main_v2 main_c
  main_v3
-- ==== Kernel.lean ====
abbrev S4x16x128x128x16 : Shape := ⟨5, ![4, 16, 128, 128, 16]⟩
abbrev S1x16x128x16x16 : Shape := ⟨5, ![1, 16, 128, 16, 16]⟩
abbrev S1x16x126x16x16 : Shape := ⟨5, ![1, 16, 126, 16, 16]⟩
abbrev S1x16x1x16x16 : Shape := ⟨5, ![1, 16, 1, 16, 16]⟩
abbrev S1x16x16x128x16 : Shape := ⟨5, ![1, 16, 16, 128, 16]⟩
abbrev S1x16x16x126x16 : Shape := ⟨5, ![1, 16, 16, 126, 16]⟩
abbrev S1x16x16x1x16 : Shape := ⟨5, ![1, 16, 16, 1, 16]⟩
abbrev S1x14x16x128x16 : Shape := ⟨5, ![1, 14, 16, 128, 16]⟩
abbrev S1x1x16x128x16 : Shape := ⟨5, ![1, 1, 16, 128, 16]⟩

abbrev nBuf : Space → Nat
  | .hbm => 4
  | .vmem => 12
  | .smem => 0
  | _ => 0

abbrev bufTy : (tb : Table) → Fin (tcTables nBuf tb) → BufTy
  | .hbm, ⟨0, _⟩ => ⟨S4x16x128x128x16, .f32⟩
  | .hbm, ⟨1, _⟩ => ⟨S4x16x128x128x16, .f32⟩
  | .hbm, ⟨2, _⟩ => ⟨S4x16x128x128x16, .f32⟩
  | .hbm, ⟨3, _⟩ => ⟨S4x16x128x128x16, .f32⟩
  | .local _ .vmem, ⟨0, _⟩ => ⟨S1x16x128x16x16, .f32⟩
  | .local _ .vmem, ⟨1, _⟩ => ⟨S1x16x128x16x16, .f32⟩
  | .local _ .vmem, ⟨2, _⟩ => ⟨S1x16x128x16x16, .f32⟩
  | .local _ .vmem, ⟨3, _⟩ => ⟨S1x16x128x16x16, .f32⟩
  | .local _ .vmem, ⟨4, _⟩ => ⟨S1x16x16x128x16, .f32⟩
  | .local _ .vmem, ⟨5, _⟩ => ⟨S1x16x16x128x16, .f32⟩
  | .local _ .vmem, ⟨6, _⟩ => ⟨S1x16x16x128x16, .f32⟩
  | .local _ .vmem, ⟨7, _⟩ => ⟨S1x16x16x128x16, .f32⟩
  | .local _ .vmem, ⟨8, _⟩ => ⟨S1x16x16x128x16, .f32⟩
  | .local _ .vmem, ⟨9, _⟩ => ⟨S1x16x16x128x16, .f32⟩
  | .local _ .vmem, ⟨10, _⟩ => ⟨S1x16x16x128x16, .f32⟩
  | .local _ .vmem, ⟨11, _⟩ => ⟨S1x16x16x128x16, .f32⟩
  | _, _ => ⟨S4x16x128x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S1x16x128x16x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 8], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage1_0 : Fin 2 → Memref sig .tc .vmem S1x16x16x128x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x16x128x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![4, 8], ![false, false]⟩

def cc2_transform_0 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc2_transform_1 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage2_0 : Fin 2 → Memref sig .tc .vmem S1x16x16x128x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x16x16x128x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

class Facts₀ : Prop where
  inb_S1x16x128x16x16_S1x16x126x16x16_0_0_2_0_0 : ∀ a, (![0, 0, 2, 0, 0] : Fin 5 → Nat) a + S1x16x126x16x16.size a ≤ S1x16x128x16x16.size a
  h_S1x16x126x16x16 : 0 < S1x16x126x16x16.numel
  inb_S1x16x128x16x16_S1x16x126x16x16_0_0_0_0_0 : ∀ a, (![0, 0, 0, 0, 0] : Fin 5 → Nat) a + S1x16x126x16x16.size a ≤ S1x16x128x16x16.size a
  inb_S1x16x128x16x16_S1x16x126x16x16_0_0_1_0_0 : ∀ a, (![0, 0, 1, 0, 0] : Fin 5 → Nat) a + S1x16x126x16x16.size a ≤ S1x16x128x16x16.size a
  inb_S1x16x128x16x16_S1x16x1x16x16_0_0_1_0_0 : ∀ a, (![0, 0, 1, 0, 0] : Fin 5 → Nat) a + S1x16x1x16x16.size a ≤ S1x16x128x16x16.size a
  h_S1x16x1x16x16 : 0 < S1x16x1x16x16.numel
  inb_S1x16x128x16x16_S1x16x1x16x16_0_0_0_0_0 : ∀ a, (![0, 0, 0, 0, 0] : Fin 5 → Nat) a + S1x16x1x16x16.size a ≤ S1x16x128x16x16.size a
  inb_S1x16x128x16x16_S1x16x1x16x16_0_0_126_0_0 : ∀ a, (![0, 0, 126, 0, 0] : Fin 5 → Nat) a + S1x16x1x16x16.size a ≤ S1x16x128x16x16.size a
  inb_S1x16x128x16x16_S1x16x1x16x16_0_0_127_0_0 : ∀ a, (![0, 0, 127, 0, 0] : Fin 5 → Nat) a + S1x16x1x16x16.size a ≤ S1x16x128x16x16.size a
  inb_S1x16x16x128x16_S1x16x16x126x16_0_0_0_2_0 : ∀ a, (![0, 0, 0, 2, 0] : Fin 5 → Nat) a + S1x16x16x126x16.size a ≤ S1x16x16x128x16.size a
  h_S1x16x16x126x16 : 0 < S1x16x16x126x16.numel
  inb_S1x16x16x128x16_S1x16x16x126x16_0_0_0_0_0 : ∀ a, (![0, 0, 0, 0, 0] : Fin 5 → Nat) a + S1x16x16x126x16.size a ≤ S1x16x16x128x16.size a
  inb_S1x16x16x128x16_S1x16x16x126x16_0_0_0_1_0 : ∀ a, (![0, 0, 0, 1, 0] : Fin 5 → Nat) a + S1x16x16x126x16.size a ≤ S1x16x16x128x16.size a
  inb_S1x16x16x128x16_S1x16x16x1x16_0_0_0_1_0 : ∀ a, (![0, 0, 0, 1, 0] : Fin 5 → Nat) a + S1x16x16x1x16.size a ≤ S1x16x16x128x16.size a
  h_S1x16x16x1x16 : 0 < S1x16x16x1x16.numel
  inb_S1x16x16x128x16_S1x16x16x1x16_0_0_0_0_0 : ∀ a, (![0, 0, 0, 0, 0] : Fin 5 → Nat) a + S1x16x16x1x16.size a ≤ S1x16x16x128x16.size a
  inb_S1x16x16x128x16_S1x16x16x1x16_0_0_0_126_0 : ∀ a, (![0, 0, 0, 126, 0] : Fin 5 → Nat) a + S1x16x16x1x16.size a ≤ S1x16x16x128x16.size a
  inb_S1x16x16x128x16_S1x16x16x1x16_0_0_0_127_0 : ∀ a, (![0, 0, 0, 127, 0] : Fin 5 → Nat) a + S1x16x16x1x16.size a ≤ S1x16x16x128x16.size a
  inb_S1x16x16x128x16_S1x14x16x128x16_0_2_0_0_0 : ∀ a, (![0, 2, 0, 0, 0] : Fin 5 → Nat) a + S1x14x16x128x16.size a ≤ S1x16x16x128x16.size a
  h_S1x14x16x128x16 : 0 < S1x14x16x128x16.numel
  inb_S1x16x16x128x16_S1x14x16x128x16_0_0_0_0_0 : ∀ a, (![0, 0, 0, 0, 0] : Fin 5 → Nat) a + S1x14x16x128x16.size a ≤ S1x16x16x128x16.size a
  inb_S1x16x16x128x16_S1x14x16x128x16_0_1_0_0_0 : ∀ a, (![0, 1, 0, 0, 0] : Fin 5 → Nat) a + S1x14x16x128x16.size a ≤ S1x16x16x128x16.size a
  inb_S1x16x16x128x16_S1x1x16x128x16_0_1_0_0_0 : ∀ a, (![0, 1, 0, 0, 0] : Fin 5 → Nat) a + S1x1x16x128x16.size a ≤ S1x16x16x128x16.size a
  h_S1x1x16x128x16 : 0 < S1x1x16x128x16.numel
  inb_S1x16x16x128x16_S1x1x16x128x16_0_0_0_0_0 : ∀ a, (![0, 0, 0, 0, 0] : Fin 5 → Nat) a + S1x1x16x128x16.size a ≤ S1x16x16x128x16.size a
  inb_S1x16x16x128x16_S1x1x16x128x16_0_14_0_0_0 : ∀ a, (![0, 14, 0, 0, 0] : Fin 5 → Nat) a + S1x1x16x128x16.size a ≤ S1x16x16x128x16.size a
  inb_S1x16x16x128x16_S1x1x16x128x16_0_15_0_0_0 : ∀ a, (![0, 15, 0, 0, 0] : Fin 5 → Nat) a + S1x1x16x128x16.size a ≤ S1x16x16x128x16.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x16x16.size a ≤ S4x16x128x128x16.size a
  hwx0_0 : ∀ i : grid0.Coords, EltTy.bits .f32 = 32 ∨ (Rect.block (s := S4x16x128x128x16) S1x16x128x16x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x16x16.size a ≤ S4x16x128x128x16.size a
  hwx0_1 : ∀ i : grid0.Coords, EltTy.bits .f32 = 32 ∨ (Rect.block (s := S4x16x128x128x16) S1x16x128x16x16.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x16x128x16.size a ≤ S4x16x128x128x16.size a
  hwx1_0 : ∀ i : grid1.Coords, EltTy.bits .f32 = 32 ∨ (Rect.block (s := S4x16x128x128x16) S1x16x16x128x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x16x128x16.size a ≤ S4x16x128x128x16.size a
  hwx1_1 : ∀ i : grid1.Coords, EltTy.bits .f32 = 32 ∨ (Rect.block (s := S4x16x128x128x16) S1x16x16x128x16.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x16x128x16.size a ≤ S4x16x128x128x16.size a
  hwx2_0 : ∀ i : grid2.Coords, EltTy.bits .f32 = 32 ∨ (Rect.block (s := S4x16x128x128x16) S1x16x16x128x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x16x16x128x16.size a ≤ S4x16x128x128x16.size a
  hwx2_1 : ∀ i : grid2.Coords, EltTy.bits .f32 = 32 ∨ (Rect.block (s := S4x16x128x128x16) S1x16x16x128x16.size (cc2_transform_1 i) (hinb2_1 i)).WholeWords (EltTy.packing .f32)

variable [Facts₀]

abbrev win0_0 : Pipeline.Window sig grid0 :=
  Pipeline.Window.ofSpec (Memref.whole main_arg0) S1x16x128x16x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x128x16x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x16x16x128x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x16x16x128x16.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg0) S1x16x16x128x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x16x16x128x16.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S4x16x128x128x16 : Shape := ⟨5, ![4, 16, 128, 128, 16]⟩
abbrev S_ : Shape := ⟨0, ![]⟩
abbrev S4x16x130x128x16 : Shape := ⟨5, ![4, 16, 130, 128, 16]⟩
abbrev S4x16x128x130x16 : Shape := ⟨5, ![4, 16, 128, 130, 16]⟩
abbrev S4x18x128x128x16 : Shape := ⟨5, ![4, 18, 128, 128, 16]⟩

abbrev nBuf : Space → Nat
  | .hbm => 37
  | .vmem => 0
  | .smem => 0
  | _ => 0

abbrev bufTy : (tb : Table) → Fin (tcTables nBuf tb) → BufTy
  | .hbm, ⟨0, _⟩ => ⟨S4x16x128x128x16, .f32⟩
  | .hbm, ⟨1, _⟩ => ⟨S_, .i32⟩
  | .hbm, ⟨2, _⟩ => ⟨S_, .f32⟩
  | .hbm, ⟨3, _⟩ => ⟨S4x16x130x128x16, .f32⟩
  | .hbm, ⟨4, _⟩ => ⟨S4x16x128x128x16, .f32⟩
  | .hbm, ⟨5, _⟩ => ⟨S_, .f32⟩
  | .hbm, ⟨6, _⟩ => ⟨S4x16x128x128x16, .f32⟩
  | .hbm, ⟨7, _⟩ => ⟨S4x16x128x128x16, .f32⟩
  | .hbm, ⟨8, _⟩ => ⟨S4x16x128x128x16, .f32⟩
  | .hbm, ⟨9, _⟩ => ⟨S_, .f32⟩
  | .hbm, ⟨10, _⟩ => ⟨S4x16x128x128x16, .f32⟩
  | .hbm, ⟨11, _⟩ => ⟨S4x16x128x128x16, .f32⟩
  | .hbm, ⟨12, _⟩ => ⟨S4x16x128x128x16, .f32⟩
  | .hbm, ⟨13, _⟩ => ⟨S_, .i32⟩
  | .hbm, ⟨14, _⟩ => ⟨S_, .f32⟩
  | .hbm, ⟨15, _⟩ => ⟨S4x16x128x130x16, .f32⟩
  | .hbm, ⟨16, _⟩ => ⟨S4x16x128x128x16, .f32⟩
  | .hbm, ⟨17, _⟩ => ⟨S_, .f32⟩
  | .hbm, ⟨18, _⟩ => ⟨S4x16x128x128x16, .f32⟩
  | .hbm, ⟨19, _⟩ => ⟨S4x16x128x128x16, .f32⟩
  | .hbm, ⟨20, _⟩ => ⟨S4x16x128x128x16, .f32⟩
  | .hbm, ⟨21, _⟩ => ⟨S_, .f32⟩
  | .hbm, ⟨22, _⟩ => ⟨S4x16x128x128x16, .f32⟩
  | .hbm, ⟨23, _⟩ => ⟨S4x16x128x128x16, .f32⟩
  | .hbm, ⟨24, _⟩ => ⟨S4x16x128x128x16, .f32⟩
  | .hbm, ⟨25, _⟩ => ⟨S_, .i32⟩
  | .hbm, ⟨26, _⟩ => ⟨S_, .f32⟩
  | .hbm, ⟨27, _⟩ => ⟨S4x18x128x128x16, .f32⟩
  | .hbm, ⟨28, _⟩ => ⟨S4x16x128x128x16, .f32⟩
  | .hbm, ⟨29, _⟩ => ⟨S_, .f32⟩
  | .hbm, ⟨30, _⟩ => ⟨S4x16x128x128x16, .f32⟩
  | .hbm, ⟨31, _⟩ => ⟨S4x16x128x128x16, .f32⟩
  | .hbm, ⟨32, _⟩ => ⟨S4x16x128x128x16, .f32⟩
  | .hbm, ⟨33, _⟩ => ⟨S_, .f32⟩
  | .hbm, ⟨34, _⟩ => ⟨S4x16x128x128x16, .f32⟩
  | .hbm, ⟨35, _⟩ => ⟨S4x16x128x128x16, .f32⟩
  | .hbm, ⟨36, _⟩ => ⟨S4x16x128x128x16, .f32⟩
  | _, _ => ⟨S4x16x128x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_call2_v0 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  pads_S4x16x128x128x16_S4x16x130x128x16_000_000_110_000_000 : S4x16x128x128x16.Pads (![0, 0, 1, 0, 0] : Fin 5 → Nat) ![0, 0, 1, 0, 0] ![0, 0, 0, 0, 0] S4x16x130x128x16
  h_S_ : 0 < S_.numel
  slices_S4x16x130x128x16_S4x16x128x128x16_0_0_0_0_0 : S4x16x130x128x16.Slices ![0, 0, 0, 0, 0] S4x16x128x128x16
  bcast_S_S4x16x128x128x16 : S_.BroadcastsInDim S4x16x128x128x16 (![] : Fin 0 → Fin S4x16x128x128x16.rank)
  slices_S4x16x130x128x16_S4x16x128x128x16_0_0_2_0_0 : S4x16x130x128x16.Slices ![0, 0, 2, 0, 0] S4x16x128x128x16
  pads_S4x16x128x128x16_S4x16x128x130x16_000_000_000_110_000 : S4x16x128x128x16.Pads (![0, 0, 0, 1, 0] : Fin 5 → Nat) ![0, 0, 0, 1, 0] ![0, 0, 0, 0, 0] S4x16x128x130x16
  slices_S4x16x128x130x16_S4x16x128x128x16_0_0_0_0_0 : S4x16x128x130x16.Slices ![0, 0, 0, 0, 0] S4x16x128x128x16
  slices_S4x16x128x130x16_S4x16x128x128x16_0_0_0_2_0 : S4x16x128x130x16.Slices ![0, 0, 0, 2, 0] S4x16x128x128x16
  pads_S4x16x128x128x16_S4x18x128x128x16_000_110_000_000_000 : S4x16x128x128x16.Pads (![0, 1, 0, 0, 0] : Fin 5 → Nat) ![0, 1, 0, 0, 0] ![0, 0, 0, 0, 0] S4x18x128x128x16
  slices_S4x18x128x128x16_S4x16x128x128x16_0_0_0_0_0 : S4x18x128x128x16.Slices ![0, 0, 0, 0, 0] S4x16x128x128x16
  slices_S4x18x128x128x16_S4x16x128x128x16_0_2_0_0_0 : S4x18x128x128x16.Slices ![0, 2, 0, 0, 0] S4x16x128x128x16

variable [Facts₀]

class Facts : Prop extends Facts₀ where

variable [Facts]
-- ==== Proof.LibCentralDifference.lean ====
/-
  The central difference with zero padding, as a function on arrays of extended reals.

  Along one axis of length `n` the values form a line `f : Fin n → EReal`; extended by zero on both sides,
  the difference at position `k` is `f (k+1) - f (k-1)`, where a neighbour outside the line counts as `0`:
  `lineDiff f k`. At an interior position it is `f (k+1) - f (k-1)`, at the first position `f 1`
  (the left neighbour is zero), at the last `0 - f (n-2)` (the right one is).
  For a rank-5 array the difference along axis 1, 2 or 3 is `lineDiff` of the line through the index on that
  axis (`diffAx1`, `diffAx2`, `diffAx3`), generic in the five extents.
  The one law used: with the filter `(-1, 0, 1)`, `(-1) · p + 1 · q = q - p` on the extended reals, for
  every `p` and `q`, infinite ones included (only the unit laws of the product and commutativity of the sum).
-/
import Idealize.ShloMosaic.PureOps.Ideal.Laws
import Idealize.ShloMosaic.Lib.ValueIdx
import Idealize.ShloMosaic.Lib.IdealHost

noncomputable section

namespace Cert.CentralDifference

open Idealize.ShloMosaic Idealize.ShloMosaic.ValueIdx

/-- The right neighbour's value on a line, zero past its end. -/
def rightOf {n : Nat} (f : Fin n → EReal) (k : Fin n) : EReal :=
  if h : k.val + 1 < n then f ⟨k.val + 1, h⟩ else 0

/-- The left neighbour's value on a line, zero before its start. -/
def leftOf {n : Nat} (f : Fin n → EReal) (k : Fin n) : EReal :=
  if h : 0 < k.val then f ⟨k.val - 1, by have := k.isLt; omega⟩ else 0

/-- The central difference of a line extended by zero: right neighbour minus left neighbour. -/
def lineDiff {n : Nat} (f : Fin n → EReal) (k : Fin n) : EReal := rightOf f k - leftOf f k

theorem rightOf_eq {n : Nat} (f : Fin n → EReal) (k a : Fin n) (ha : a.val = k.val + 1) : rightOf f k = f a := by
  unfold rightOf
  rw [dif_pos (by have := a.isLt; omega)]
  exact congrArg f (Fin.ext ha.symm)

theorem rightOf_last {n : Nat} (f : Fin n → EReal) (k : Fin n) (hk : k.val + 1 = n) : rightOf f k = 0 := by
  unfold rightOf
  rw [dif_neg (by omega)]

theorem leftOf_eq {n : Nat} (f : Fin n → EReal) (k b : Fin n) (hb : b.val + 1 = k.val) : leftOf f k = f b := by
  unfold leftOf
  rw [dif_pos (by omega)]
  exact congrArg f (Fin.ext (by show k.val - 1 = b.val; omega))

theorem leftOf_first {n : Nat} (f : Fin n → EReal) (k : Fin n) (hk : k.val = 0) : leftOf f k = 0 := by
  unfold leftOf
  rw [dif_neg (by omega)]

/-- At an interior position: the right neighbour minus the left one. -/
theorem lineDiff_interior {n : Nat} (f : Fin n → EReal) (k a b : Fin n) (ha : a.val = k.val + 1) (hb : b.val + 1 = k.val) :
    lineDiff f k = f a - f b := by
  unfold lineDiff; rw [rightOf_eq f k a ha, leftOf_eq f k b hb]

/-- At the first position the left neighbour is zero: the difference is the second entry. -/
theorem lineDiff_first {n : Nat} (f : Fin n → EReal) (k a : Fin n) (hk : k.val = 0) (ha : a.val = 1) :
    lineDiff f k = f a := by
  unfold lineDiff; rw [rightOf_eq f k a (by omega), leftOf_first f k hk, sub_zero]

/-- At the last position the right neighbour is zero: the difference is zero minus the entry before. -/
theorem lineDiff_last {n : Nat} (f : Fin n → EReal) (k b : Fin n) (hk : k.val + 1 = n) (hb : b.val + 1 = k.val) :
    lineDiff f k = 0 - f b := by
  unfold lineDiff; rw [rightOf_last f k hk, leftOf_eq f k b hb]

/-- Two lines that agree entry by entry have the same difference at the same position. -/
theorem lineDiff_congr {n : Nat} (f g : Fin n → EReal) (k k' : Fin n) (hfg : ∀ h, f h = g h) (hk : k.val = k'.val) :
    lineDiff f k = lineDiff g k' := by
  obtain rfl : f = g := funext hfg
  obtain rfl : k = k' := Fin.ext hk
  rfl

/-- The filter `(-1, 0, 1)` applied to the two neighbours is their difference, on all of the extended reals. -/
theorem filter_eq_sub (p q : EReal) : (-1 : EReal) * p + 1 * q = q - p := by
  rw [neg_mul, one_mul, one_mul, add_comm, sub_eq_add_neg]

/-- The f32 word of `-1.0` is the extended real minus one. -/
theorem ofBits_neg_one_f32 : Ideal.ofBits .f32 0xBF800000#32 = (-1 : EReal) := by
  have h : Ideal.ofBits .f32 0xBF800000#32 = ((-(1 : ℝ) : ℝ) : EReal) := by
    simp [Ideal.ofBits, Ideal.ieee, -EReal.coe_mul, -EReal.coe_neg]; norm_num
  rw [h, EReal.coe_neg, EReal.coe_one]

/-! ## Rank-5 arrays -/

variable {n0 n1 n2 n3 n4 : Nat}

/-- The central difference along axis 1. -/
def diffAx1 (x : (⟨5, ![n0, n1, n2, n3, n4]⟩ : Shape).Idx → EReal) : (⟨5, ![n0, n1, n2, n3, n4]⟩ : Shape).Idx → EReal :=
  fun i => lineDiff (fun k : Fin n1 => x (ix5 (i 0) k (i 2) (i 3) (i 4))) (i 1)

/-- The central difference along axis 2. -/
def diffAx2 (x : (⟨5, ![n0, n1, n2, n3, n4]⟩ : Shape).Idx → EReal) : (⟨5, ![n0, n1, n2, n3, n4]⟩ : Shape).Idx → EReal :=
  fun i => lineDiff (fun k : Fin n2 => x (ix5 (i 0) (i 1) k (i 3) (i 4))) (i 2)

/-- The central difference along axis 3. -/
def diffAx3 (x : (⟨5, ![n0, n1, n2, n3, n4]⟩ : Shape).Idx → EReal) : (⟨5, ![n0, n1, n2, n3, n4]⟩ : Shape).Idx → EReal :=
  fun i => lineDiff (fun k : Fin n3 => x (ix5 (i 0) (i 1) (i 2) k (i 4))) (i 3)

/-- Two rank-5 indices with the same five coordinates are equal. -/
theorem idx5_ext (i j : (⟨5, ![n0, n1, n2, n3, n4]⟩ : Shape).Idx)
    (h0 : (i 0).val = (j 0).val) (h1 : (i 1).val = (j 1).val) (h2 : (i 2).val = (j 2).val)
    (h3 : (i 3).val = (j 3).val) (h4 : (i 4).val = (j 4).val) : i = j := by
  funext a
  match a with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

end Cert.CentralDifference

end
-- ==== Proof.DiffAlongH.lean ====
/-
  The first launch: the central difference along H (axis 2) of a [4, 16, 128, 128, 16] array.

  A grid point (b, w) holds the block [1, 16, 128, 16, 16] of the input at batch b and columns 16w..16w+15:
  the whole H axis is inside the block, so every neighbour along H is in the block too. The body writes the
  output block in three pieces — rows 1..126 as input rows 2..127 minus rows 0..125, row 0 as input row 1,
  row 127 as zero minus input row 126 — and each piece is the zero-padded central difference `diffAx2` of the
  block at its rows (`body_eq`). The block's difference is the array's difference read through the block,
  because the block starts at row 0 of H and has all 128 rows (`flushed_eq`); the 4 × 8 blocks tile the array
  (`cover`), so after the launch the output array is `diffAx2` of the input array (`final`).
-/
import proofs.«174857_j23957327577310_1_alg».proof.Proof.Gen.KernelIdeal.Frame
import proofs.«174857_j23957327577310_1_alg».proof.Proof.LibCentralDifference
import Idealize.ShloMosaic.Lib.ValueIdx
import Idealize.ShloMosaic.Lib.Pipeline.Value
import Idealize.ShloMosaic.PureOps.Ideal.Laws

set_option maxRecDepth 16384

noncomputable section

namespace Cert.KernelIdeal.DiffAlongH

open Idealize.ShloMosaic Idealize.ShloMosaic.TcCoe Idealize.ShloMosaic.Tactic Idealize.SL.Sem Idealize.ShloMosaic.ValueIdx
open Cert.KernelIdeal Cert.KernelIdeal.Gen Cert.CentralDifference

/-- What the body leaves in the output block is the central difference along H of the input block:
    each of its three stores writes that function on its rows. -/
theorem body_eq (c : Dev nD) (i : grid0.Coords) (arg2 : Memref sig .tc .vmem S1x16x128x16x16 .f32) (harg2 : arg2.IsWhole)
    (arg3 : Memref sig .tc .vmem S1x16x128x16x16 .f32) (harg3 : arg3.IsWhole) (x0 : Vec Ideal S1x16x128x16x16 .f32) :
    out0_A_1 (F := Ideal) c i arg2 harg2 arg3 harg3 x0 = diffAx2 x0 := by
  funext y
  have hc := cover0_A_1 (F := Ideal) c i arg2 harg2 arg3 harg3 x0 y
  revert hc
  unfold out0_A_1 kernelRun0_A
  dsimp only
  sl_unfold_words
  intro hc
  refine View.read_writes_apply_of_pieces _ _ (diffAx2 x0) _ ?_ y hc
  intro p hp x'
  simp only [List.mem_cons, List.mem_nil_iff, or_false] at hp
  rcases hp with rfl | rfl | rfl
  · -- row 127: zero minus row 126
    dsimp only at x' ⊢
    simp only [View.readAt_eq_ld, harg2.read_unread]
    revert x'; intro (x' : S1x16x1x16x16.Idx)
    have hx2 : (x' 2).val < 1 := (x' 2).isLt
    unfold diffAx2
    refine Eq.trans ?_ (lineDiff_last _ _ (⟨126, by decide⟩ : Fin 128) (by show 127 + 1 * (x' 2).val + 1 = 128; omega)
      (by show 126 + 1 = 127 + 1 * (x' 2).val; omega)).symm
    show (Ideal.ofBits .f32 0x00000000#32 : EReal) - x0 _ = 0 - x0 _
    rw [Ideal.ofBits_zero_f32]
    exact congrArg (fun z => (0 : EReal) - x0 z) (idx5_ext _ _ rfl rfl (by show 126 + 1 * (x' 2).val = 126; omega) rfl rfl)
  · -- row 0: row 1
    dsimp only at x' ⊢
    simp only [View.readAt_eq_ld, harg2.read_unread]
    revert x'; intro (x' : S1x16x1x16x16.Idx)
    have hx2 : (x' 2).val < 1 := (x' 2).isLt
    unfold diffAx2
    refine Eq.trans ?_ (lineDiff_first _ _ (⟨1, by decide⟩ : Fin 128) (by show 0 + 1 * (x' 2).val = 0; omega) rfl).symm
    exact congrArg x0 (idx5_ext _ _ rfl rfl (by show 1 + 1 * (x' 2).val = 1; omega) rfl rfl)
  · -- rows 1..126: the row after minus the row before
    dsimp only at x' ⊢
    simp only [View.readAt_eq_ld, harg2.read_unread]
    revert x'; intro (x' : S1x16x126x16x16.Idx)
    have hx2 : (x' 2).val < 126 := (x' 2).isLt
    unfold diffAx2
    refine Eq.trans ?_ (lineDiff_interior _ _ (⟨2 + (x' 2).val, by omega⟩ : Fin 128) (⟨(x' 2).val, by omega⟩ : Fin 128)
      (by show 2 + (x' 2).val = 1 + 1 * (x' 2).val + 1; omega) (by show (x' 2).val + 1 = 1 + 1 * (x' 2).val; omega)).symm
    show x0 _ - x0 _ = x0 _ - x0 _
    congr 1
    · exact congrArg x0 (idx5_ext _ _ rfl rfl (by show 2 + 1 * (x' 2).val = 2 + (x' 2).val; omega) rfl rfl)
    · exact congrArg x0 (idx5_ext _ _ rfl rfl (by show 0 + 1 * (x' 2).val = (x' 2).val; omega) rfl rfl)

/-- The printed index maps, decided over the grid: the input and the output window move together, and both
    stay at block 0 on the axes they do not tile. -/
theorem idx_facts : ∀ t : Fin cfg0.N,
    win0_0.index t (0 : Fin 5) = win0_1.index t (0 : Fin 5) ∧ win0_0.index t (3 : Fin 5) = win0_1.index t (3 : Fin 5)
    ∧ win0_0.index t (1 : Fin 5) = 0 ∧ win0_0.index t (2 : Fin 5) = 0 ∧ win0_0.index t (4 : Fin 5) = 0
    ∧ win0_1.index t (1 : Fin 5) = 0 ∧ win0_1.index t (2 : Fin 5) = 0 ∧ win0_1.index t (4 : Fin 5) = 0 :=
  (by decide +kernel : ∀ t : Fin grid0.N, _)

/-- Every (batch, column-block) pair is some grid point's. -/
theorem idx_onto : ∀ (q0 : Fin 4) (q3 : Fin 8), ∃ t : Fin cfg0.N, win0_1.index t = ![q0.val, 0, 0, q3.val, 0] :=
  (by decide +kernel : ∀ (q0 : Fin 4) (q3 : Fin 8), ∃ t : Fin grid0.N, win0_1.index t = ![q0.val, 0, 0, q3.val, 0])

variable (V : (c : Dev nD) → (b : Ref sig .tc) → Buf (Elt Ideal) ((c : Thread nD τ).loc b))

/-- The input array as the launch finds it. -/
abbrev xin (c : Dev nD) : S4x16x128x128x16.Idx → EReal := V c main_arg0

/-- What grid point `t` writes back is block `t` of the central difference along H of the input array. -/
theorem flushed_eq (c : Dev nD) (t : Fin cfg0.N) :
    (dat0 V c).flushed 1 t = ((cfg0.win 1).blk t).view.read (Elt Ideal) (diffAx2 (xin V c)) := by
  show (cfg0.win 1).cut (grid0.coords t) ((dat0 V c).after 1 t) = _
  rw [after0_1]
  unfold outsAt0
  rw [body_eq]
  obtain ⟨e0, e3, e1, e2, e4, f1, f2, f4⟩ := idx_facts t
  funext y
  show diffAx2 (iblk0 V c 0 t) y = diffAx2 (xin V c) (((cfg0.win 1).blk t).view.emb y)
  unfold diffAx2
  refine lineDiff_congr _ _ _ _ (fun k => ?_) ?_
  · show xin V c (((cfg0.win 0).blk t).view.emb (ix5 (y 0) (y 1) k (y 3) (y 4))) = xin V c _
    refine congrArg (xin V c) (idx5_ext _ _ ?_ ?_ ?_ ?_ ?_)
    · show win0_0.index t (0 : Fin 5) * 1 + 1 * (y 0).val = win0_1.index t (0 : Fin 5) * 1 + 1 * (y 0).val; omega
    · show win0_0.index t (1 : Fin 5) * 16 + 1 * (y 1).val = win0_1.index t (1 : Fin 5) * 16 + 1 * (y 1).val; omega
    · show win0_0.index t (2 : Fin 5) * 128 + 1 * k.val = k.val; omega
    · show win0_0.index t (3 : Fin 5) * 16 + 1 * (y 3).val = win0_1.index t (3 : Fin 5) * 16 + 1 * (y 3).val; omega
    · show win0_0.index t (4 : Fin 5) * 16 + 1 * (y 4).val = win0_1.index t (4 : Fin 5) * 16 + 1 * (y 4).val; omega
  · show (y 2).val = win0_1.index t (2 : Fin 5) * 128 + 1 * (y 2).val; omega

/-- An index of the array is in point `t`'s block iff each coordinate is in the block's range on its axis. -/
theorem mem_blk (t : Fin cfg0.N) (i : S4x16x128x128x16.Idx) :
    i ∈ ((cfg0.win 1).blk t).view.set ↔ ∀ a : Fin 5, win0_1.index t a * S1x16x128x16x16.size a ≤ (i a).val
      ∧ (i a).val < win0_1.index t a * S1x16x128x16x16.size a + S1x16x128x16x16.size a := by
  show i ∈ ((View.whole main_v0).slice (win0_1.rect t)).set ↔ _
  rw [View.set_slice_whole, Rect.mem_set_unit]
  exact Iff.rfl

/-- The output's blocks tile the array: every index is in the block of its batch and its column block. -/
theorem cover (i : S4x16x128x128x16.Idx) :
    ∃ t : Fin cfg0.N, (cfg0.win 1).flush t = true ∧ i ∈ ((cfg0.win 1).blk t).view.set := by
  have hi0 : (i 0).val < 4 := (i 0).isLt
  have hi1 : (i 1).val < 16 := (i 1).isLt
  have hi2 : (i 2).val < 128 := (i 2).isLt
  have hi3 : (i 3).val < 128 := (i 3).isLt
  have hi4 : (i 4).val < 16 := (i 4).isLt
  obtain ⟨t, ht⟩ := idx_onto ⟨(i 0).val, hi0⟩ ⟨(i 3).val / 16, by omega⟩
  have q0 : win0_1.index t (0 : Fin 5) = (i 0).val := congrFun ht 0
  have q1 : win0_1.index t (1 : Fin 5) = 0 := congrFun ht 1
  have q2 : win0_1.index t (2 : Fin 5) = 0 := congrFun ht 2
  have q3 : win0_1.index t (3 : Fin 5) = (i 3).val / 16 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 16 ≤ (i 1).val ∧ (i 1).val < win0_1.index t (1 : Fin 5) * 16 + 16; omega
  | ⟨2, _⟩ => show win0_1.index t (2 : Fin 5) * 128 ≤ (i 2).val ∧ (i 2).val < win0_1.index t (2 : Fin 5) * 128 + 128; omega
  | ⟨3, _⟩ => show win0_1.index t (3 : Fin 5) * 16 ≤ (i 3).val ∧ (i 3).val < win0_1.index t (3 : Fin 5) * 16 + 16; omega
  | ⟨4, _⟩ => show win0_1.index t (4 : Fin 5) * 16 ≤ (i 4).val ∧ (i 4).val < win0_1.index t (4 : Fin 5) * 16 + 16; omega

/-- After the launch the output array is the central difference along H of the input array. -/
theorem final (c : Dev nD) : (dat0 V c).arrAt 1 cfg0.N = diffAx2 (xin V c) :=
  (dat0 V c).arrAt_eq_of_cover 1 (diffAx2 (xin V c)) (fun t _ => flushed_eq V c t) (cover)

end Cert.KernelIdeal.DiffAlongH

end
-- ==== Proof.DiffAlongW.lean ====
/-
  The second launch: the central difference along W (axis 3) of a [4, 16, 128, 128, 16] array.

  A grid point (b, h) holds the block [1, 16, 16, 128, 16] of the input at batch b and rows 16h..16h+15:
  the whole W axis is inside the block, so every neighbour along W is in the block too. The body writes the
  output block in three pieces — columns 1..126 as input columns 2..127 minus columns 0..125, column 0 as
  input column 1, column 127 as zero minus input column 126 — and each piece is the zero-padded central
  difference `diffAx3` of the block at its columns (`body_eq`). The block's difference is the array's
  difference read through the block, because the block starts at column 0 of W and has all 128 columns
  (`flushed_eq`); the 4 × 8 blocks tile the array (`cover`), so after the launch the output array is
  `diffAx3` of the input array (`final`).
-/
import proofs.«174857_j23957327577310_1_alg».proof.Proof.Gen.KernelIdeal.Frame
import proofs.«174857_j23957327577310_1_alg».proof.Proof.LibCentralDifference
import Idealize.ShloMosaic.Lib.ValueIdx
import Idealize.ShloMosaic.Lib.Pipeline.Value
import Idealize.ShloMosaic.PureOps.Ideal.Laws

set_option maxRecDepth 16384

noncomputable section

namespace Cert.KernelIdeal.DiffAlongW

open Idealize.ShloMosaic Idealize.ShloMosaic.TcCoe Idealize.ShloMosaic.Tactic Idealize.SL.Sem Idealize.ShloMosaic.ValueIdx
open Cert.KernelIdeal Cert.KernelIdeal.Gen Cert.CentralDifference

/-- What the body leaves in the output block is the central difference along W of the input block:
    each of its three stores writes that function on its columns. -/
theorem body_eq (c : Dev nD) (i : grid1.Coords) (arg2 : Memref sig .tc .vmem S1x16x16x128x16 .f32) (harg2 : arg2.IsWhole)
    (arg3 : Memref sig .tc .vmem S1x16x16x128x16 .f32) (harg3 : arg3.IsWhole) (x0 : Vec Ideal S1x16x16x128x16 .f32) :
    out1_A_1 (F := Ideal) c i arg2 harg2 arg3 harg3 x0 = diffAx3 x0 := by
  funext y
  have hc := cover1_A_1 (F := Ideal) c i arg2 harg2 arg3 harg3 x0 y
  revert hc
  unfold out1_A_1 kernelRun1_A
  dsimp only
  sl_unfold_words
  intro hc
  refine View.read_writes_apply_of_pieces _ _ (diffAx3 x0) _ ?_ y hc
  intro p hp x'
  simp only [List.mem_cons, List.mem_nil_iff, or_false] at hp
  rcases hp with rfl | rfl | rfl
  · -- column 127: zero minus column 126
    dsimp only at x' ⊢
    simp only [View.readAt_eq_ld, harg2.read_unread]
    revert x'; intro (x' : S1x16x16x1x16.Idx)
    have hx3 : (x' 3).val < 1 := (x' 3).isLt
    unfold diffAx3
    refine Eq.trans ?_ (lineDiff_last _ _ (⟨126, by decide⟩ : Fin 128) (by show 127 + 1 * (x' 3).val + 1 = 128; omega)
      (by show 126 + 1 = 127 + 1 * (x' 3).val; omega)).symm
    show (Ideal.ofBits .f32 0x00000000#32 : EReal) - x0 _ = 0 - x0 _
    rw [Ideal.ofBits_zero_f32]
    exact congrArg (fun z => (0 : EReal) - x0 z) (idx5_ext _ _ rfl rfl rfl (by show 126 + 1 * (x' 3).val = 126; omega) rfl)
  · -- column 0: column 1
    dsimp only at x' ⊢
    simp only [View.readAt_eq_ld, harg2.read_unread]
    revert x'; intro (x' : S1x16x16x1x16.Idx)
    have hx3 : (x' 3).val < 1 := (x' 3).isLt
    unfold diffAx3
    refine Eq.trans ?_ (lineDiff_first _ _ (⟨1, by decide⟩ : Fin 128) (by show 0 + 1 * (x' 3).val = 0; omega) rfl).symm
    exact congrArg x0 (idx5_ext _ _ rfl rfl rfl (by show 1 + 1 * (x' 3).val = 1; omega) rfl)
  · -- columns 1..126: the column after minus the column before
    dsimp only at x' ⊢
    simp only [View.readAt_eq_ld, harg2.read_unread]
    revert x'; intro (x' : S1x16x16x126x16.Idx)
    have hx3 : (x' 3).val < 126 := (x' 3).isLt
    unfold diffAx3
    refine Eq.trans ?_ (lineDiff_interior _ _ (⟨2 + (x' 3).val, by omega⟩ : Fin 128) (⟨(x' 3).val, by omega⟩ : Fin 128)
      (by show 2 + (x' 3).val = 1 + 1 * (x' 3).val + 1; omega) (by show (x' 3).val + 1 = 1 + 1 * (x' 3).val; omega)).symm
    show x0 _ - x0 _ = x0 _ - x0 _
    congr 1
    · exact congrArg x0 (idx5_ext _ _ rfl rfl rfl (by show 2 + 1 * (x' 3).val = 2 + (x' 3).val; omega) rfl)
    · exact congrArg x0 (idx5_ext _ _ rfl rfl rfl (by show 0 + 1 * (x' 3).val = (x' 3).val; omega) rfl)

/-- The printed index maps, decided over the grid: the input and the output window move together, and both
    stay at block 0 on the axes they do not tile. -/
theorem idx_facts : ∀ t : Fin cfg1.N,
    win1_0.index t (0 : Fin 5) = win1_1.index t (0 : Fin 5) ∧ win1_0.index t (2 : Fin 5) = win1_1.index t (2 : Fin 5)
    ∧ win1_0.index t (1 : Fin 5) = 0 ∧ win1_0.index t (3 : Fin 5) = 0 ∧ win1_0.index t (4 : Fin 5) = 0
    ∧ win1_1.index t (1 : Fin 5) = 0 ∧ win1_1.index t (3 : Fin 5) = 0 ∧ win1_1.index t (4 : Fin 5) = 0 :=
  (by decide +kernel : ∀ t : Fin grid1.N, _)

/-- Every (batch, row-block) pair is some grid point's. -/
theorem idx_onto : ∀ (q0 : Fin 4) (q2 : Fin 8), ∃ t : Fin cfg1.N, win1_1.index t = ![q0.val, 0, q2.val, 0, 0] :=
  (by decide +kernel : ∀ (q0 : Fin 4) (q2 : Fin 8), ∃ t : Fin grid1.N, win1_1.index t = ![q0.val, 0, q2.val, 0, 0])

variable (V : (c : Dev nD) → (b : Ref sig .tc) → Buf (Elt Ideal) ((c : Thread nD τ).loc b))

/-- The input array as the launch finds it. -/
abbrev xin (c : Dev nD) : S4x16x128x128x16.Idx → EReal := V c main_arg0

/-- What grid point `t` writes back is block `t` of the central difference along W of the input array. -/
theorem flushed_eq (c : Dev nD) (t : Fin cfg1.N) :
    (dat1 V c).flushed 1 t = ((cfg1.win 1).blk t).view.read (Elt Ideal) (diffAx3 (xin V c)) := by
  show (cfg1.win 1).cut (grid1.coords t) ((dat1 V c).after 1 t) = _
  rw [after1_1]
  unfold outsAt1
  rw [body_eq]
  obtain ⟨e0, e2, e1, e3, e4, f1, f3, f4⟩ := idx_facts t
  funext y
  show diffAx3 (iblk1 V c 0 t) y = diffAx3 (xin V c) (((cfg1.win 1).blk t).view.emb y)
  unfold diffAx3
  refine lineDiff_congr _ _ _ _ (fun k => ?_) ?_
  · show xin V c (((cfg1.win 0).blk t).view.emb (ix5 (y 0) (y 1) (y 2) k (y 4))) = xin V c _
    refine congrArg (xin V c) (idx5_ext _ _ ?_ ?_ ?_ ?_ ?_)
    · show win1_0.index t (0 : Fin 5) * 1 + 1 * (y 0).val = win1_1.index t (0 : Fin 5) * 1 + 1 * (y 0).val; omega
    · show win1_0.index t (1 : Fin 5) * 16 + 1 * (y 1).val = win1_1.index t (1 : Fin 5) * 16 + 1 * (y 1).val; omega
    · show win1_0.index t (2 : Fin 5) * 16 + 1 * (y 2).val = win1_1.index t (2 : Fin 5) * 16 + 1 * (y 2).val; omega
    · show win1_0.index t (3 : Fin 5) * 128 + 1 * k.val = k.val; omega
    · show win1_0.index t (4 : Fin 5) * 16 + 1 * (y 4).val = win1_1.index t (4 : Fin 5) * 16 + 1 * (y 4).val; omega
  · show (y 3).val = win1_1.index t (3 : Fin 5) * 128 + 1 * (y 3).val; omega

/-- An index of the array is in point `t`'s block iff each coordinate is in the block's range on its axis. -/
theorem mem_blk (t : Fin cfg1.N) (i : S4x16x128x128x16.Idx) :
    i ∈ ((cfg1.win 1).blk t).view.set ↔ ∀ a : Fin 5, win1_1.index t a * S1x16x16x128x16.size a ≤ (i a).val
      ∧ (i a).val < win1_1.index t a * S1x16x16x128x16.size a + S1x16x16x128x16.size a := by
  show i ∈ ((View.whole main_v1).slice (win1_1.rect t)).set ↔ _
  rw [View.set_slice_whole, Rect.mem_set_unit]
  exact Iff.rfl

/-- The output's blocks tile the array: every index is in the block of its batch and its row block. -/
theorem cover (i : S4x16x128x128x16.Idx) :
    ∃ t : Fin cfg1.N, (cfg1.win 1).flush t = true ∧ i ∈ ((cfg1.win 1).blk t).view.set := by
  have hi0 : (i 0).val < 4 := (i 0).isLt
  have hi1 : (i 1).val < 16 := (i 1).isLt
  have hi2 : (i 2).val < 128 := (i 2).isLt
  have hi3 : (i 3).val < 128 := (i 3).isLt
  have hi4 : (i 4).val < 16 := (i 4).isLt
  obtain ⟨t, ht⟩ := idx_onto ⟨(i 0).val, hi0⟩ ⟨(i 2).val / 16, by omega⟩
  have q0 : win1_1.index t (0 : Fin 5) = (i 0).val := congrFun ht 0
  have q1 : win1_1.index t (1 : Fin 5) = 0 := congrFun ht 1
  have q2 : win1_1.index t (2 : Fin 5) = (i 2).val / 16 := congrFun ht 2
  have q3 : win1_1.index t (3 : Fin 5) = 0 := congrFun ht 3
  have q4 : win1_1.index t (4 : Fin 5) = 0 := congrFun ht 4
  refine ⟨t, flush1_1 t, ?_⟩
  rw [mem_blk]
  intro a
  match a with
  | ⟨0, _⟩ => show win1_1.index t (0 : Fin 5) * 1 ≤ (i 0).val ∧ (i 0).val < win1_1.index t (0 : Fin 5) * 1 + 1; omega
  | ⟨1, _⟩ => show win1_1.index t (1 : Fin 5) * 16 ≤ (i 1).val ∧ (i 1).val < win1_1.index t (1 : Fin 5) * 16 + 16; omega
  | ⟨2, _⟩ => show win1_1.index t (2 : Fin 5) * 16 ≤ (i 2).val ∧ (i 2).val < win1_1.index t (2 : Fin 5) * 16 + 16; omega
  | ⟨3, _⟩ => show win1_1.index t (3 : Fin 5) * 128 ≤ (i 3).val ∧ (i 3).val < win1_1.index t (3 : Fin 5) * 128 + 128; omega
  | ⟨4, _⟩ => show win1_1.index t (4 : Fin 5) * 16 ≤ (i 4).val ∧ (i 4).val < win1_1.index t (4 : Fin 5) * 16 + 16; omega

/-- After the launch the output array is the central difference along W of the input array. -/
theorem final (c : Dev nD) : (dat1 V c).arrAt 1 cfg1.N = diffAx3 (xin V c) :=
  (dat1 V c).arrAt_eq_of_cover 1 (diffAx3 (xin V c)) (fun t _ => flushed_eq V c t) (cover)

end Cert.KernelIdeal.DiffAlongW

end
-- ==== Proof.DiffAlongT.lean ====
/-
  The third launch: the central difference along T (axis 1) of a [4, 16, 128, 128, 16] array.

  A grid point (b, h) holds the block [1, 16, 16, 128, 16] of the input at batch b and rows 16h..16h+15:
  the whole T axis (16 frames) is inside the block, so every neighbour along T is in the block too. The body
  writes the output block in three pieces — frames 1..14 as input frames 2..15 minus frames 0..13, frame 0 as
  input frame 1, frame 15 as zero minus input frame 14 — and each piece is the zero-padded central difference
  `diffAx1` of the block at its frames (`body_eq`). The block's difference is the array's difference read
  through the block, because the block starts at frame 0 of T and has all 16 frames (`flushed_eq`); the 4 × 8
  blocks tile the array (`cover`), so after the launch the output array is `diffAx1` of the input array
  (`final`).
-/
import proofs.«174857_j23957327577310_1_alg».proof.Proof.Gen.KernelIdeal.Frame
import proofs.«174857_j23957327577310_1_alg».proof.Proof.LibCentralDifference
import Idealize.ShloMosaic.Lib.ValueIdx
import Idealize.ShloMosaic.Lib.Pipeline.Value
import Idealize.ShloMosaic.PureOps.Ideal.Laws

set_option maxRecDepth 16384

noncomputable section

namespace Cert.KernelIdeal.DiffAlongT

open Idealize.ShloMosaic Idealize.ShloMosaic.TcCoe Idealize.ShloMosaic.Tactic Idealize.SL.Sem Idealize.ShloMosaic.ValueIdx
open Cert.KernelIdeal Cert.KernelIdeal.Gen Cert.CentralDifference

/-- What the body leaves in the output block is the central difference along T of the input block:
    each of its three stores writes that function on its frames. -/
theorem body_eq (c : Dev nD) (i : grid2.Coords) (arg2 : Memref sig .tc .vmem S1x16x16x128x16 .f32) (harg2 : arg2.IsWhole)
    (arg3 : Memref sig .tc .vmem S1x16x16x128x16 .f32) (harg3 : arg3.IsWhole) (x0 : Vec Ideal S1x16x16x128x16 .f32) :
    out2_A_1 (F := Ideal) c i arg2 harg2 arg3 harg3 x0 = diffAx1 x0 := by
  funext y
  have hc := cover2_A_1 (F := Ideal) c i arg2 harg2 arg3 harg3 x0 y
  revert hc
  unfold out2_A_1 kernelRun2_A
  dsimp only
  sl_unfold_words
  intro hc
  refine View.read_writes_apply_of_pieces _ _ (diffAx1 x0) _ ?_ y hc
  intro p hp x'
  simp only [List.mem_cons, List.mem_nil_iff, or_false] at hp
  rcases hp with rfl | rfl | rfl
  · -- frame 15: zero minus frame 14
    dsimp only at x' ⊢
    simp only [View.readAt_eq_ld, harg2.read_unread]
    revert x'; intro (x' : S1x1x16x128x16.Idx)
    have hx1 : (x' 1).val < 1 := (x' 1).isLt
    unfold diffAx1
    refine Eq.trans ?_ (lineDiff_last _ _ (⟨14, by decide⟩ : Fin 16) (by show 15 + 1 * (x' 1).val + 1 = 16; omega)
      (by show 14 + 1 = 15 + 1 * (x' 1).val; omega)).symm
    show (Ideal.ofBits .f32 0x00000000#32 : EReal) - x0 _ = 0 - x0 _
    rw [Ideal.ofBits_zero_f32]
    exact congrArg (fun z => (0 : EReal) - x0 z) (idx5_ext _ _ rfl (by show 14 + 1 * (x' 1).val = 14; omega) rfl rfl rfl)
  · -- frame 0: frame 1
    dsimp only at x' ⊢
    simp only [View.readAt_eq_ld, harg2.read_unread]
    revert x'; intro (x' : S1x1x16x128x16.Idx)
    have hx1 : (x' 1).val < 1 := (x' 1).isLt
    unfold diffAx1
    refine Eq.trans ?_ (lineDiff_first _ _ (⟨1, by decide⟩ : Fin 16) (by show 0 + 1 * (x' 1).val = 0; omega) rfl).symm
    exact congrArg x0 (idx5_ext _ _ rfl (by show 1 + 1 * (x' 1).val = 1; omega) rfl rfl rfl)
  · -- frames 1..14: the frame after minus the frame before
    dsimp only at x' ⊢
    simp only [View.readAt_eq_ld, harg2.read_unread]
    revert x'; intro (x' : S1x14x16x128x16.Idx)
    have hx1 : (x' 1).val < 14 := (x' 1).isLt
    unfold diffAx1
    refine Eq.trans ?_ (lineDiff_interior _ _ (⟨2 + (x' 1).val, by omega⟩ : Fin 16) (⟨(x' 1).val, by omega⟩ : Fin 16)
      (by show 2 + (x' 1).val = 1 + 1 * (x' 1).val + 1; omega) (by show (x' 1).val + 1 = 1 + 1 * (x' 1).val; omega)).symm
    show x0 _ - x0 _ = x0 _ - x0 _
    congr 1
    · exact congrArg x0 (idx5_ext _ _ rfl (by show 2 + 1 * (x' 1).val = 2 + (x' 1).val; omega) rfl rfl rfl)
    · exact congrArg x0 (idx5_ext _ _ rfl (by show 0 + 1 * (x' 1).val = (x' 1).val; omega) rfl rfl rfl)

/-- The printed index maps, decided over the grid: the input and the output window move together, and both
    stay at block 0 on the axes they do not tile. -/
theorem idx_facts : ∀ t : Fin cfg2.N,
    win2_0.index t (0 : Fin 5) = win2_1.index t (0 : Fin 5) ∧ win2_0.index t (2 : Fin 5) = win2_1.index t (2 : Fin 5)
    ∧ win2_0.index t (1 : Fin 5) = 0 ∧ win2_0.index t (3 : Fin 5) = 0 ∧ win2_0.index t (4 : Fin 5) = 0
    ∧ win2_1.index t (1 : Fin 5) = 0 ∧ win2_1.index t (3 : Fin 5) = 0 ∧ win2_1.index t (4 : Fin 5) = 0 :=
  (by decide +kernel : ∀ t : Fin grid2.N, _)

/-- Every (batch, row-block) pair is some grid point's. -/
theorem idx_onto : ∀ (q0 : Fin 4) (q2 : Fin 8), ∃ t : Fin cfg2.N, win2_1.index t = ![q0.val, 0, q2.val, 0, 0] :=
  (by decide +kernel : ∀ (q0 : Fin 4) (q2 : Fin 8), ∃ t : Fin grid2.N, win2_1.index t = ![q0.val, 0, q2.val, 0, 0])

variable (V : (c : Dev nD) → (b : Ref sig .tc) → Buf (Elt Ideal) ((c : Thread nD τ).loc b))

/-- The input array as the launch finds it. -/
abbrev xin (c : Dev nD) : S4x16x128x128x16.Idx → EReal := V c main_arg0

/-- What grid point `t` writes back is block `t` of the central difference along T of the input array. -/
theorem flushed_eq (c : Dev nD) (t : Fin cfg2.N) :
    (dat2 V c).flushed 1 t = ((cfg2.win 1).blk t).view.read (Elt Ideal) (diffAx1 (xin V c)) := by
  show (cfg2.win 1).cut (grid2.coords t) ((dat2 V c).after 1 t) = _
  rw [after2_1]
  unfold outsAt2
  rw [body_eq]
  obtain ⟨e0, e2, e1, e3, e4, f1, f3, f4⟩ := idx_facts t
  funext y
  show diffAx1 (iblk2 V c 0 t) y = diffAx1 (xin V c) (((cfg2.win 1).blk t).view.emb y)
  unfold diffAx1
  refine lineDiff_congr _ _ _ _ (fun k => ?_) ?_
  · show xin V c (((cfg2.win 0).blk t).view.emb (ix5 (y 0) k (y 2) (y 3) (y 4))) = xin V c _
    refine congrArg (xin V c) (idx5_ext _ _ ?_ ?_ ?_ ?_ ?_)
    · show win2_0.index t (0 : Fin 5) * 1 + 1 * (y 0).val = win2_1.index t (0 : Fin 5) * 1 + 1 * (y 0).val; omega
    · show win2_0.index t (1 : Fin 5) * 16 + 1 * k.val = k.val; omega
    · show win2_0.index t (2 : Fin 5) * 16 + 1 * (y 2).val = win2_1.index t (2 : Fin 5) * 16 + 1 * (y 2).val; omega
    · show win2_0.index t (3 : Fin 5) * 128 + 1 * (y 3).val = win2_1.index t (3 : Fin 5) * 128 + 1 * (y 3).val; omega
    · show win2_0.index t (4 : Fin 5) * 16 + 1 * (y 4).val = win2_1.index t (4 : Fin 5) * 16 + 1 * (y 4).val; omega
  · show (y 1).val = win2_1.index t (1 : Fin 5) * 16 + 1 * (y 1).val; omega

/-- An index of the array is in point `t`'s block iff each coordinate is in the block's range on its axis. -/
theorem mem_blk (t : Fin cfg2.N) (i : S4x16x128x128x16.Idx) :
    i ∈ ((cfg2.win 1).blk t).view.set ↔ ∀ a : Fin 5, win2_1.index t a * S1x16x16x128x16.size a ≤ (i a).val
      ∧ (i a).val < win2_1.index t a * S1x16x16x128x16.size a + S1x16x16x128x16.size a := by
  show i ∈ ((View.whole main_v2).slice (win2_1.rect t)).set ↔ _
  rw [View.set_slice_whole, Rect.mem_set_unit]
  exact Iff.rfl

/-- The output's blocks tile the array: every index is in the block of its batch and its row block. -/
theorem cover (i : S4x16x128x128x16.Idx) :
    ∃ t : Fin cfg2.N, (cfg2.win 1).flush t = true ∧ i ∈ ((cfg2.win 1).blk t).view.set := by
  have hi0 : (i 0).val < 4 := (i 0).isLt
  have hi1 : (i 1).val < 16 := (i 1).isLt
  have hi2 : (i 2).val < 128 := (i 2).isLt
  have hi3 : (i 3).val < 128 := (i 3).isLt
  have hi4 : (i 4).val < 16 := (i 4).isLt
  obtain ⟨t, ht⟩ := idx_onto ⟨(i 0).val, hi0⟩ ⟨(i 2).val / 16, by omega⟩
  have q0 : win2_1.index t (0 : Fin 5) = (i 0).val := congrFun ht 0
  have q1 : win2_1.index t (1 : Fin 5) = 0 := congrFun ht 1
  have q2 : win2_1.index t (2 : Fin 5) = (i 2).val / 16 := congrFun ht 2
  have q3 : win2_1.index t (3 : Fin 5) = 0 := congrFun ht 3
  have q4 : win2_1.index t (4 : Fin 5) = 0 := congrFun ht 4
  refine ⟨t, flush2_1 t, ?_⟩
  rw [mem_blk]
  intro a
  match a with
  | ⟨0, _⟩ => show win2_1.index t (0 : Fin 5) * 1 ≤ (i 0).val ∧ (i 0).val < win2_1.index t (0 : Fin 5) * 1 + 1; omega
  | ⟨1, _⟩ => show win2_1.index t (1 : Fin 5) * 16 ≤ (i 1).val ∧ (i 1).val < win2_1.index t (1 : Fin 5) * 16 + 16; omega
  | ⟨2, _⟩ => show win2_1.index t (2 : Fin 5) * 16 ≤ (i 2).val ∧ (i 2).val < win2_1.index t (2 : Fin 5) * 16 + 16; omega
  | ⟨3, _⟩ => show win2_1.index t (3 : Fin 5) * 128 ≤ (i 3).val ∧ (i 3).val < win2_1.index t (3 : Fin 5) * 128 + 128; omega
  | ⟨4, _⟩ => show win2_1.index t (4 : Fin 5) * 16 ≤ (i 4).val ∧ (i 4).val < win2_1.index t (4 : Fin 5) * 16 + 16; omega

/-- After the launch the output array is the central difference along T of the input array. -/
theorem final (c : Dev nD) : (dat2 V c).arrAt 1 cfg2.N = diffAx1 (xin V c) :=
  (dat2 V c).arrAt_eq_of_cover 1 (diffAx1 (xin V c)) (fun t _ => flushed_eq V c t) (cover)

end Cert.KernelIdeal.DiffAlongT

end
-- ==== Proof.KernelValue.lean ====
/-
  The three result arrays at the end of the run, as functions of the argument.

  The run's last boundary contents are a fold through the three launches: a launch replaces its own output
  array by what its write-backs leave and keeps every other buffer. No launch writes the argument, so each
  launch finds the argument as launched (`input1`, `input2`); a result array is written by one launch only, so
  at the end it still holds what that launch left: the central difference of the argument along H, along W and
  along T (`result_H`, `result_W`, `result_T`).
-/
import proofs.«174857_j23957327577310_1_alg».proof.Proof.Gen.KernelIdeal.Frame
import proofs.«174857_j23957327577310_1_alg».proof.Proof.LibCentralDifference
import proofs.«174857_j23957327577310_1_alg».proof.Proof.DiffAlongH
import proofs.«174857_j23957327577310_1_alg».proof.Proof.DiffAlongW
import proofs.«174857_j23957327577310_1_alg».proof.Proof.DiffAlongT

set_option maxRecDepth 16384

noncomputable section

namespace Cert.KernelIdeal.KernelValue

open Idealize.ShloMosaic Idealize.ShloMosaic.TcCoe Idealize.SL.Sem
open Cert.KernelIdeal Cert.KernelIdeal.Gen Cert.CentralDifference

variable (m : (ℓ : Loc nD τ sig) → Buf (Elt Ideal) ℓ) (ρ : Dev nD → PrngReg)

/-- The argument array as launched. -/
abbrev arg (c : Dev nD) : S4x16x128x128x16.Idx → EReal := m ((c : Thread nD τ).loc main_arg0)

/-- The second launch finds the argument as launched: the first one only read it. -/
theorem input1 (c : Dev nD) : DiffAlongW.xin (V1 m ρ) c = arg m c :=
  (W1_arr m ρ c 0).trans (((dat0 (V0 m ρ) c).arrAt_in 0 rfl _).trans (A_eq0 (V0 m ρ) c 0))

/-- The third launch finds the argument as launched: the first two only read it. -/
theorem input2 (c : Dev nD) : DiffAlongT.xin (V2 m ρ) c = arg m c :=
  ((W2_arr m ρ c 0).trans (((dat1 (V1 m ρ) c).arrAt_in 0 rfl _).trans (A_eq1 (V1 m ρ) c 0))).trans (input1 m ρ c)

/-- The first result: written by the first launch, untouched by the other two. -/
theorem result_H (c : Dev nD) : W3 m ρ c (Proc.devRef .tc main_v0) = diffAx2 (arg m c) :=
  calc W3 m ρ c (Proc.devRef .tc main_v0)
    _ = W2 m ρ c (Proc.devRef .tc main_v0) := W3_of_ne m ρ c main_v0 (fun w => by fin_cases w <;> decide)
    _ = W1 m ρ c (Proc.devRef .tc main_v0) := W2_of_ne m ρ c main_v0 (fun w => by fin_cases w <;> decide)
    _ = (dat0 (V0 m ρ) c).arrAt 1 cfg0.N := W1_arr m ρ c 1
    _ = diffAx2 (DiffAlongH.xin (V0 m ρ) c) := DiffAlongH.final (V0 m ρ) c
    _ = diffAx2 (arg m c) := rfl

/-- The second result: written by the second launch, untouched by the third. -/
theorem result_W (c : Dev nD) : W3 m ρ c (Proc.devRef .tc main_v1) = diffAx3 (arg m c) :=
  calc W3 m ρ c (Proc.devRef .tc main_v1)
    _ = W2 m ρ c (Proc.devRef .tc main_v1) := W3_of_ne m ρ c main_v1 (fun w => by fin_cases w <;> decide)
    _ = (dat1 (V1 m ρ) c).arrAt 1 cfg1.N := W2_arr m ρ c 1
    _ = diffAx3 (DiffAlongW.xin (V1 m ρ) c) := DiffAlongW.final (V1 m ρ) c
    _ = diffAx3 (arg m c) := by rw [input1]

/-- The third result: written by the third launch. -/
theorem result_T (c : Dev nD) : W3 m ρ c (Proc.devRef .tc main_v2) = diffAx1 (arg m c) :=
  calc W3 m ρ c (Proc.devRef .tc main_v2)
    _ = (dat2 (V2 m ρ) c).arrAt 1 cfg2.N := W3_arr m ρ c 1
    _ = diffAx1 (DiffAlongT.xin (V2 m ρ) c) := DiffAlongT.final (V2 m ρ) c
    _ = diffAx1 (arg m c) := by rw [input2]

end Cert.KernelIdeal.KernelValue

end
-- ==== Proof.RefDiff.lean ====
/-
  The reference, read index by index: each of its three results is the zero-padded central difference.

  For one axis the reference pads the array with one zero on each side, takes the slice that starts at padded
  position 0 (at position k it holds the entry at k-1, the left neighbour, or the padding zero when k = 0) and
  the slice that starts at padded position 2 (the entry at k+1, the right neighbour, or zero when k is last),
  and adds minus one times the first to one times the second. On the extended reals that is the right neighbour
  minus the left one for every pair of values (`filter_eq_sub`): `lineDiff` of the line through the index.
-/
import proofs.«174857_j23957327577310_1_alg».proof.Proof.Gen.ReferenceIdeal.Read
import proofs.«174857_j23957327577310_1_alg».proof.Proof.LibCentralDifference
import Idealize.ShloMosaic.Lib.KernelVsHost
import Idealize.ShloMosaic.Lib.ValueIdx
import Idealize.ShloMosaic.Lib.IdealHost
import Idealize.ShloMosaic.PureOps.Ideal.Laws

set_option maxRecDepth 16384

noncomputable section

namespace Cert.ReferenceIdeal.RefDiff

open Idealize.ShloMosaic Idealize.ShloMosaic.TcCoe Idealize.SL.Sem Idealize.ShloMosaic.ValueIdx
open Cert.ReferenceIdeal Cert.ReferenceIdeal.Gen Cert.ReferenceIdeal.Read Cert.CentralDifference

/-! ## The difference along H (axis 2) -/

/-- The padding value, the integer zero converted, is the extended real zero. -/
theorem padval_H (j : S_.Idx) : val_main_call0_v0 (F := Ideal) j = 0 := by
  rw [val_main_call0_v0_apply, val_main_c_apply]
  show (((0#32 : BitVec 32).toInt : ℝ) : EReal) = 0
  simp

/-- The padded array read where the first slice reads it: the left neighbour along H, zero before the start. -/
theorem pad_left_H (x : S4x16x128x128x16.Idx → EReal) (i : S4x16x128x128x16.Idx) :
    val_main_v0 (F := Ideal) x (idx_main_v1 i) = leftOf (fun k : Fin 128 => x (ix5 (i 0) (i 1) k (i 3) (i 4))) (i 2) := by
  have hi : (i 2).val < 128 := (i 2).isLt
  by_cases h : 0 < (i 2).val
  · refine Eq.trans ?_ (leftOf_eq _ _ (⟨(i 2).val - 1, by omega⟩ : Fin 128) (by show (i 2).val - 1 + 1 = (i 2).val; omega)).symm
    unfold val_main_v0
    exact pad_apply_of_inside _ _ _ x _ pads_S4x16x128x128x16_S4x16x130x128x16_000_000_110_000_000 h_S_ (idx_main_v1 i)
      (ix5 (i 0) (i 1) ⟨(i 2).val - 1, by omega⟩ (i 3) (i 4) : S4x16x128x128x16.Idx) (fun a => match a with
      | ⟨0, _⟩ => by show (i 0).val = 0 + (i 0).val * (0 + 1); omega
      | ⟨1, _⟩ => by show (i 1).val = 0 + (i 1).val * (0 + 1); omega
      | ⟨2, _⟩ => by show (i 2).val = 1 + ((i 2).val - 1) * (0 + 1); omega
      | ⟨3, _⟩ => by show (i 3).val = 0 + (i 3).val * (0 + 1); omega
      | ⟨4, _⟩ => by show (i 4).val = 0 + (i 4).val * (0 + 1); omega)
  · refine Eq.trans ?_ (leftOf_first _ _ (by show (i 2).val = 0; omega)).symm
    unfold val_main_v0
    rw [pad_apply_of_not_inside _ _ _ x _ pads_S4x16x128x128x16_S4x16x130x128x16_000_000_110_000_000 h_S_ (idx_main_v1 i) (2 : Fin 5)
      (by show ¬(1 ≤ (i 2).val ∧ ((i 2).val - 1) % (0 + 1) = 0 ∧ ((i 2).val - 1) / (0 + 1) < 128); omega)]
    exact padval_H _

/-- The padded array read where the second slice reads it: the right neighbour along H, zero past the end. -/
theorem pad_right_H (x : S4x16x128x128x16.Idx → EReal) (i : S4x16x128x128x16.Idx) :
    val_main_v0 (F := Ideal) x (idx_main_v4 i) = rightOf (fun k : Fin 128 => x (ix5 (i 0) (i 1) k (i 3) (i 4))) (i 2) := by
  have hi : (i 2).val < 128 := (i 2).isLt
  by_cases h : (i 2).val + 1 < 128
  · refine Eq.trans ?_ (rightOf_eq _ _ (⟨(i 2).val + 1, h⟩ : Fin 128) rfl).symm
    unfold val_main_v0
    exact pad_apply_of_inside _ _ _ x _ pads_S4x16x128x128x16_S4x16x130x128x16_000_000_110_000_000 h_S_ (idx_main_v4 i)
      (ix5 (i 0) (i 1) ⟨(i 2).val + 1, h⟩ (i 3) (i 4) : S4x16x128x128x16.Idx) (fun a => match a with
      | ⟨0, _⟩ => by show (i 0).val = 0 + (i 0).val * (0 + 1); omega
      | ⟨1, _⟩ => by show (i 1).val = 0 + (i 1).val * (0 + 1); omega
      | ⟨2, _⟩ => by show 2 + (i 2).val = 1 + ((i 2).val + 1) * (0 + 1); omega
      | ⟨3, _⟩ => by show (i 3).val = 0 + (i 3).val * (0 + 1); omega
      | ⟨4, _⟩ => by show (i 4).val = 0 + (i 4).val * (0 + 1); omega)
  · refine Eq.trans ?_ (rightOf_last _ _ (by show (i 2).val + 1 = 128; omega)).symm
    unfold val_main_v0
    rw [pad_apply_of_not_inside _ _ _ x _ pads_S4x16x128x128x16_S4x16x130x128x16_000_000_110_000_000 h_S_ (idx_main_v4 i) (2 : Fin 5)
      (by show ¬(1 ≤ 2 + (i 2).val ∧ (2 + (i 2).val - 1) % (0 + 1) = 0 ∧ (2 + (i 2).val - 1) / (0 + 1) < 128); omega)]
    exact padval_H _

/-- The reference's result along H: minus one times the left neighbour plus one times the right one is the
    zero-padded central difference. -/
theorem result_H (x : S4x16x128x128x16.Idx → EReal) : val_main_v7 (F := Ideal) x = diffAx2 x := by
  funext i
  rw [val_main_v7_apply, val_main_v3_apply, val_main_v6_apply, val_main_v2_apply, val_main_v5_apply,
    val_main_cst_apply, val_main_cst_0_apply, val_main_v1_apply, val_main_v4_apply, pad_left_H, pad_right_H]
  simp only [Ideal.addf_def, Ideal.mulf_def, Ideal.ofBits_def, ofBits_neg_one_f32, Ideal.ofBits_one_f32, filter_eq_sub]
  rfl

/-! ## The difference along W (axis 3) -/

/-- The padding value, the integer zero converted, is the extended real zero. -/
theorem padval_W (j : S_.Idx) : val_main_call1_v0 (F := Ideal) j = 0 := by
  rw [val_main_call1_v0_apply, val_main_c_1_apply]
  show (((0#32 : BitVec 32).toInt : ℝ) : EReal) = 0
  simp

/-- The padded array read where the first slice reads it: the left neighbour along W, zero before the start. -/
theorem pad_left_W (x : S4x16x128x128x16.Idx → EReal) (i : S4x16x128x128x16.Idx) :
    val_main_v8 (F := Ideal) x (idx_main_v9 i) = leftOf (fun k : Fin 128 => x (ix5 (i 0) (i 1) (i 2) k (i 4))) (i 3) := by
  have hi : (i 3).val < 128 := (i 3).isLt
  by_cases h : 0 < (i 3).val
  · refine Eq.trans ?_ (leftOf_eq _ _ (⟨(i 3).val - 1, by omega⟩ : Fin 128) (by show (i 3).val - 1 + 1 = (i 3).val; omega)).symm
    unfold val_main_v8
    exact pad_apply_of_inside _ _ _ x _ pads_S4x16x128x128x16_S4x16x128x130x16_000_000_000_110_000 h_S_ (idx_main_v9 i)
      (ix5 (i 0) (i 1) (i 2) ⟨(i 3).val - 1, by omega⟩ (i 4) : S4x16x128x128x16.Idx) (fun a => match a with
      | ⟨0, _⟩ => by show (i 0).val = 0 + (i 0).val * (0 + 1); omega
      | ⟨1, _⟩ => by show (i 1).val = 0 + (i 1).val * (0 + 1); omega
      | ⟨2, _⟩ => by show (i 2).val = 0 + (i 2).val * (0 + 1); omega
      | ⟨3, _⟩ => by show (i 3).val = 1 + ((i 3).val - 1) * (0 + 1); omega
      | ⟨4, _⟩ => by show (i 4).val = 0 + (i 4).val * (0 + 1); omega)
  · refine Eq.trans ?_ (leftOf_first _ _ (by show (i 3).val = 0; omega)).symm
    unfold val_main_v8
    rw [pad_apply_of_not_inside _ _ _ x _ pads_S4x16x128x128x16_S4x16x128x130x16_000_000_000_110_000 h_S_ (idx_main_v9 i) (3 : Fin 5)
      (by show ¬(1 ≤ (i 3).val ∧ ((i 3).val - 1) % (0 + 1) = 0 ∧ ((i 3).val - 1) / (0 + 1) < 128); omega)]
    exact padval_W _

/-- The padded array read where the second slice reads it: the right neighbour along W, zero past the end. -/
theorem pad_right_W (x : S4x16x128x128x16.Idx → EReal) (i : S4x16x128x128x16.Idx) :
    val_main_v8 (F := Ideal) x (idx_main_v12 i) = rightOf (fun k : Fin 128 => x (ix5 (i 0) (i 1) (i 2) k (i 4))) (i 3) := by
  have hi : (i 3).val < 128 := (i 3).isLt
  by_cases h : (i 3).val + 1 < 128
  · refine Eq.trans ?_ (rightOf_eq _ _ (⟨(i 3).val + 1, h⟩ : Fin 128) rfl).symm
    unfold val_main_v8
    exact pad_apply_of_inside _ _ _ x _ pads_S4x16x128x128x16_S4x16x128x130x16_000_000_000_110_000 h_S_ (idx_main_v12 i)
      (ix5 (i 0) (i 1) (i 2) ⟨(i 3).val + 1, h⟩ (i 4) : S4x16x128x128x16.Idx) (fun a => match a with
      | ⟨0, _⟩ => by show (i 0).val = 0 + (i 0).val * (0 + 1); omega
      | ⟨1, _⟩ => by show (i 1).val = 0 + (i 1).val * (0 + 1); omega
      | ⟨2, _⟩ => by show (i 2).val = 0 + (i 2).val * (0 + 1); omega
      | ⟨3, _⟩ => by show 2 + (i 3).val = 1 + ((i 3).val + 1) * (0 + 1); omega
      | ⟨4, _⟩ => by show (i 4).val = 0 + (i 4).val * (0 + 1); omega)
  · refine Eq.trans ?_ (rightOf_last _ _ (by show (i 3).val + 1 = 128; omega)).symm
    unfold val_main_v8
    rw [pad_apply_of_not_inside _ _ _ x _ pads_S4x16x128x128x16_S4x16x128x130x16_000_000_000_110_000 h_S_ (idx_main_v12 i) (3 : Fin 5)
      (by show ¬(1 ≤ 2 + (i 3).val ∧ (2 + (i 3).val - 1) % (0 + 1) = 0 ∧ (2 + (i 3).val - 1) / (0 + 1) < 128); omega)]
    exact padval_W _

/-- The reference's result along W: minus one times the left neighbour plus one times the right one is the
    zero-padded central difference. -/
theorem result_W (x : S4x16x128x128x16.Idx → EReal) : val_main_v15 (F := Ideal) x = diffAx3 x := by
  funext i
  rw [val_main_v15_apply, val_main_v11_apply, val_main_v14_apply, val_main_v10_apply, val_main_v13_apply,
    val_main_cst_2_apply, val_main_cst_3_apply, val_main_v9_apply, val_main_v12_apply, pad_left_W, pad_right_W]
  simp only [Ideal.addf_def, Ideal.mulf_def, Ideal.ofBits_def, ofBits_neg_one_f32, Ideal.ofBits_one_f32, filter_eq_sub]
  rfl

/-! ## The difference along T (axis 1) -/

/-- The padding value, the integer zero converted, is the extended real zero. -/
theorem padval_T (j : S_.Idx) : val_main_call2_v0 (F := Ideal) j = 0 := by
  rw [val_main_call2_v0_apply, val_main_c_4_apply]
  show (((0#32 : BitVec 32).toInt : ℝ) : EReal) = 0
  simp

/-- The padded array read where the first slice reads it: the left neighbour along T, zero before the start. -/
theorem pad_left_T (x : S4x16x128x128x16.Idx → EReal) (i : S4x16x128x128x16.Idx) :
    val_main_v16 (F := Ideal) x (idx_main_v17 i) = leftOf (fun k : Fin 16 => x (ix5 (i 0) k (i 2) (i 3) (i 4))) (i 1) := by
  have hi : (i 1).val < 16 := (i 1).isLt
  by_cases h : 0 < (i 1).val
  · refine Eq.trans ?_ (leftOf_eq _ _ (⟨(i 1).val - 1, by omega⟩ : Fin 16) (by show (i 1).val - 1 + 1 = (i 1).val; omega)).symm
    unfold val_main_v16
    exact pad_apply_of_inside _ _ _ x _ pads_S4x16x128x128x16_S4x18x128x128x16_000_110_000_000_000 h_S_ (idx_main_v17 i)
      (ix5 (i 0) ⟨(i 1).val - 1, by omega⟩ (i 2) (i 3) (i 4) : S4x16x128x128x16.Idx) (fun a => match a with
      | ⟨0, _⟩ => by show (i 0).val = 0 + (i 0).val * (0 + 1); omega
      | ⟨1, _⟩ => by show (i 1).val = 1 + ((i 1).val - 1) * (0 + 1); omega
      | ⟨2, _⟩ => by show (i 2).val = 0 + (i 2).val * (0 + 1); omega
      | ⟨3, _⟩ => by show (i 3).val = 0 + (i 3).val * (0 + 1); omega
      | ⟨4, _⟩ => by show (i 4).val = 0 + (i 4).val * (0 + 1); omega)
  · refine Eq.trans ?_ (leftOf_first _ _ (by show (i 1).val = 0; omega)).symm
    unfold val_main_v16
    rw [pad_apply_of_not_inside _ _ _ x _ pads_S4x16x128x128x16_S4x18x128x128x16_000_110_000_000_000 h_S_ (idx_main_v17 i) (1 : Fin 5)
      (by show ¬(1 ≤ (i 1).val ∧ ((i 1).val - 1) % (0 + 1) = 0 ∧ ((i 1).val - 1) / (0 + 1) < 16); omega)]
    exact padval_T _

/-- The padded array read where the second slice reads it: the right neighbour along T, zero past the end. -/
theorem pad_right_T (x : S4x16x128x128x16.Idx → EReal) (i : S4x16x128x128x16.Idx) :
    val_main_v16 (F := Ideal) x (idx_main_v20 i) = rightOf (fun k : Fin 16 => x (ix5 (i 0) k (i 2) (i 3) (i 4))) (i 1) := by
  have hi : (i 1).val < 16 := (i 1).isLt
  by_cases h : (i 1).val + 1 < 16
  · refine Eq.trans ?_ (rightOf_eq _ _ (⟨(i 1).val + 1, h⟩ : Fin 16) rfl).symm
    unfold val_main_v16
    exact pad_apply_of_inside _ _ _ x _ pads_S4x16x128x128x16_S4x18x128x128x16_000_110_000_000_000 h_S_ (idx_main_v20 i)
      (ix5 (i 0) ⟨(i 1).val + 1, h⟩ (i 2) (i 3) (i 4) : S4x16x128x128x16.Idx) (fun a => match a with
      | ⟨0, _⟩ => by show (i 0).val = 0 + (i 0).val * (0 + 1); omega
      | ⟨1, _⟩ => by show 2 + (i 1).val = 1 + ((i 1).val + 1) * (0 + 1); omega
      | ⟨2, _⟩ => by show (i 2).val = 0 + (i 2).val * (0 + 1); omega
      | ⟨3, _⟩ => by show (i 3).val = 0 + (i 3).val * (0 + 1); omega
      | ⟨4, _⟩ => by show (i 4).val = 0 + (i 4).val * (0 + 1); omega)
  · refine Eq.trans ?_ (rightOf_last _ _ (by show (i 1).val + 1 = 16; omega)).symm
    unfold val_main_v16
    rw [pad_apply_of_not_inside _ _ _ x _ pads_S4x16x128x128x16_S4x18x128x128x16_000_110_000_000_000 h_S_ (idx_main_v20 i) (1 : Fin 5)
      (by show ¬(1 ≤ 2 + (i 1).val ∧ (2 + (i 1).val - 1) % (0 + 1) = 0 ∧ (2 + (i 1).val - 1) / (0 + 1) < 16); omega)]
    exact padval_T _

/-- The reference's result along T: minus one times the left neighbour plus one times the right one is the
    zero-padded central difference. -/
theorem result_T (x : S4x16x128x128x16.Idx → EReal) : val_main_v23 (F := Ideal) x = diffAx1 x := by
  funext i
  rw [val_main_v23_apply, val_main_v19_apply, val_main_v22_apply, val_main_v18_apply, val_main_v21_apply,
    val_main_cst_5_apply, val_main_cst_6_apply, val_main_v17_apply, val_main_v20_apply, pad_left_T, pad_right_T]
  simp only [Ideal.addf_def, Ideal.mulf_def, Ideal.ofBits_def, ofBits_neg_one_f32, Ideal.ofBits_one_f32, filter_eq_sub]
  rfl

end Cert.ReferenceIdeal.RefDiff

end
-- ==== Proof.lean ====
/-
  The certificate of a zero-padded central difference, filter (-1, 0, 1), of a [4, 16, 128, 128, 16] array along
  H, W and T: three launches of one kernel, each keeping its difference axis whole inside the block, against a
  reference that pads with zeros, slices twice and combines with the constants -1 and 1.

  At the ideal instance both programs compute, at every index and along each of the three axes, the right
  neighbour minus the left neighbour with a neighbour outside the array counted as zero (`lineDiff`,
  Proof/LibCentralDifference.lean):
  * the kernel writes each output block in three pieces, the interior as a difference of two shifted loads, the
    first position as the second entry, the last as zero minus the entry before (Proof/DiffAlongH.lean,
    DiffAlongW.lean, DiffAlongT.lean: the body, the block read through the array, the tiling, the array after
    the launch); the three result arrays at the end of the run are those of the three launches
    (Proof/KernelRun.lean, Proof/KernelValue.lean);
  * the reference's `(-1) · left + 1 · right` over the zero-padded array is the same difference, for every pair of
    extended reals (Proof/RefDiff.lean).
  No step uses that the inputs are finite. The frames of the two kernel programs are the generated ones, the
  reference's frame is its generated run with the results dropped, and the idealization rewrote nothing.
-/
import proofs.«174857_j23957327577310_1_alg».proof.Defs
import proofs.«174857_j23957327577310_1_alg».proof.Proof.Gen.Kernel
import proofs.«174857_j23957327577310_1_alg».proof.Proof.Gen.Kernel.Skeleton
import proofs.«174857_j23957327577310_1_alg».proof.Proof.Gen.Kernel.Launch
import proofs.«174857_j23957327577310_1_alg».proof.Proof.Gen.Kernel.Points
import proofs.«174857_j23957327577310_1_alg».proof.Proof.Gen.Kernel.Frame
import proofs.«174857_j23957327577310_1_alg».proof.Proof.Gen.KernelIdeal
import proofs.«174857_j23957327577310_1_alg».proof.Proof.Gen.KernelIdeal.Skeleton
import proofs.«174857_j23957327577310_1_alg».proof.Proof.Gen.KernelIdeal.Launch
import proofs.«174857_j23957327577310_1_alg».proof.Proof.Gen.KernelIdeal.Points
import proofs.«174857_j23957327577310_1_alg».proof.Proof.Gen.KernelIdeal.Frame
import proofs.«174857_j23957327577310_1_alg».proof.Proof.Gen.ReferenceIdeal
import proofs.«174857_j23957327577310_1_alg».proof.Proof.Gen.ReferenceIdeal.Run
import proofs.«174857_j23957327577310_1_alg».proof.Proof.Gen.ReferenceIdeal.Read
import proofs.«174857_j23957327577310_1_alg».proof.Proof.Gen.Pre_finite_inputs
import proofs.«174857_j23957327577310_1_alg».proof.Proof.LibCentralDifference
import proofs.«174857_j23957327577310_1_alg».proof.Proof.KernelRun
import proofs.«174857_j23957327577310_1_alg».proof.Proof.KernelValue
import proofs.«174857_j23957327577310_1_alg».proof.Proof.RefDiff
import Idealize.ShloMosaic.Adequacy
import Idealize.ShloMosaic.Init

noncomputable section

namespace Cert.Proof

open Idealize.ShloMosaic Idealize.ShloMosaic.TcCoe Idealize.SL.Sem Cert.CentralDifference

theorem frame_k : Cert.frame_Kernel := fun m ρ _ => Cert.Kernel.Gen.frame m ρ

theorem frame_ki : Cert.frame_KernelIdeal := fun m ρ _ => Cert.KernelIdeal.Gen.frame m ρ

/-- The reference's frame: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the central differences of the argument along H, W and T in their three results. -/
theorem algebraic : Cert.algebraic_KernelIdeal_ReferenceIdeal := by
  intro m ρ m' ρ' _ hagree
  refine ⟨fun c => diffAx2 (Cert.KernelIdeal.KernelValue.arg m c), fun c => diffAx3 (Cert.KernelIdeal.KernelValue.arg m c),
    fun c => diffAx1 (Cert.KernelIdeal.KernelValue.arg m c), ?_, ?_⟩
  · exact (θ_run Cert.KernelIdeal.defs _ _).mono (fun r h c =>
      ⟨(h c).1.trans (Cert.KernelIdeal.KernelValue.result_H m ρ c),
        (h c).2.1.trans (Cert.KernelIdeal.KernelValue.result_W m ρ c),
        (h c).2.2.1.trans (Cert.KernelIdeal.KernelValue.result_T m ρ c),
        (h c).2.2.2⟩) (Cert.KernelIdeal.GenRun.run_named (F := Ideal) m ρ)
  · refine (θ_run Cert.ReferenceIdeal.defs _ _).mono (fun r h c => ⟨?_, ?_, ?_, (h c).2.2.2⟩)
      (Cert.ReferenceIdeal.Value.run (F := Ideal) m' ρ')
    · exact (h c).1.trans ((Cert.ReferenceIdeal.Read.val_main_v7_eq _).trans
        ((Cert.ReferenceIdeal.RefDiff.result_H _).trans (congrArg diffAx2 (hagree c))))
    · exact (h c).2.1.trans ((Cert.ReferenceIdeal.Read.val_main_v15_eq _).trans
        ((Cert.ReferenceIdeal.RefDiff.result_W _).trans (congrArg diffAx3 (hagree c))))
    · exact (h c).2.2.1.trans ((Cert.ReferenceIdeal.Read.val_main_v23_eq _).trans
        ((Cert.ReferenceIdeal.RefDiff.result_T _).trans (congrArg diffAx1 (hagree c))))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
